-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S8x21x512x512 : Shape := ⟨4, ![8, 21, 512, 512]⟩
abbrev S_ : Shape := ⟨0, ![]⟩

class Facts : Prop where

variable [Facts]

def fn {F : FTy → Type} [FloatOps F] (main_arg0 : IVec S8x21x512x512 32) (main_arg1 : IVec S8x21x512x512 32) : IVec S_ 1 :=
  let main_c : IVec S_ 1 := constantI S_ 1 1#1
  main_c
-- ==== Kernel.lean ====
abbrev S8x21x512x512 : Shape := ⟨4, ![8, 21, 512, 512]⟩
abbrev S8x21x262144 : Shape := ⟨3, ![8, 21, 262144]⟩
abbrev S8x1x128 : Shape := ⟨3, ![8, 1, 128]⟩
abbrev S1x21x32768 : Shape := ⟨3, ![1, 21, 32768]⟩
abbrev S1x1x128 : Shape := ⟨3, ![1, 1, 128]⟩
abbrev S21x32768 : Shape := ⟨2, ![21, 32768]⟩
abbrev S21 : Shape := ⟨1, ![21]⟩
abbrev S21x1 : Shape := ⟨2, ![21, 1]⟩
abbrev S1 : Shape := ⟨1, ![1]⟩
abbrev S1x1 : Shape := ⟨2, ![1, 1]⟩
abbrev S1x3 : Shape := ⟨2, ![1, 3]⟩
abbrev S1x125 : Shape := ⟨2, ![1, 125]⟩
abbrev S1x128 : Shape := ⟨2, ![1, 128]⟩
abbrev S8x1x1 : Shape := ⟨3, ![8, 1, 1]⟩
abbrev S8 : Shape := ⟨1, ![8]⟩
abbrev S_ : Shape := ⟨0, ![]⟩

abbrev nBuf : Space → Nat
  | .hbm => 21
  | .vmem => 6
  | .smem => 0
  | _ => 0

abbrev bufTy : (tb : Table) → Fin (tcTables nBuf tb) → BufTy
  | .hbm, ⟨0, _⟩ => ⟨S8x21x512x512, .i32⟩
  | .hbm, ⟨1, _⟩ => ⟨S8x21x512x512, .i32⟩
  | .hbm, ⟨2, _⟩ => ⟨S8x21x262144, .i32⟩
  | .hbm, ⟨3, _⟩ => ⟨S8x21x262144, .i32⟩
  | .hbm, ⟨4, _⟩ => ⟨S8x1x128, .f32⟩
  | .hbm, ⟨5, _⟩ => ⟨S8x1x1, .f32⟩
  | .hbm, ⟨6, _⟩ => ⟨S8, .f32⟩
  | .hbm, ⟨7, _⟩ => ⟨S8x1x1, .f32⟩
  | .hbm, ⟨8, _⟩ => ⟨S8, .f32⟩
  | .hbm, ⟨9, _⟩ => ⟨S8x1x1, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1x21x32768, .i32⟩
  | .local _ .vmem, ⟨1, _⟩ => ⟨S1x21x32768, .i32⟩
  | .local _ .vmem, ⟨2, _⟩ => ⟨S1x21x32768, .i32⟩
  | .local _ .vmem, ⟨3, _⟩ => ⟨S1x21x32768, .i32⟩
  | .local _ .vmem, ⟨4, _⟩ => ⟨S1x1x128, .f32⟩
  | .local _ .vmem, ⟨5, _⟩ => ⟨S1x1x128, .f32⟩
  | _, _ => ⟨S8x21x512x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x21x32768 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x21x32768 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8x21x512x512_S8x21x262144 : S8x21x512x512.ShapeCasts S8x21x262144
  inb_S1x1x128_S1x1x128_0_0_0 : ∀ a, (![0, 0, 0] : Fin 3 → Nat) a + S1x1x128.size a ≤ S1x1x128.size a
  h_S1x1x128 : 0 < S1x1x128.numel
  inb_S1x21x32768_S1x21x32768_0_0_0 : ∀ a, (![0, 0, 0] : Fin 3 → Nat) a + S1x21x32768.size a ≤ S1x21x32768.size a
  h_S1x21x32768 : 0 < S1x21x32768.numel
  shapeCasts_S1x21x32768_S21x32768 : S1x21x32768.ShapeCasts S21x32768
  natLt_1_32 : 1 < 32
  reduces_S21x32768_S21 : S21x32768.Reduces [1] S21
  shapeCasts_S21_S21x1 : S21.ShapeCasts S21x1
  reduces_S21x1_S1 : S21x1.Reduces [0] S1
  shapeCasts_S1_S1x1 : S1.ShapeCasts S1x1
  concatenates_S1x1_S1x1_S1x1_S1x3_d1 : Shape.Concatenates [S1x1, S1x1, S1x1] S1x3 1
  concatenates_S1x3_S1x125_S1x128_d1 : Shape.Concatenates [S1x3, S1x125] S1x128 1
  shapeCasts_S1x1x128_S1x1x128 : S1x1x128.ShapeCasts S1x1x128
  shapeCasts_S1x128_S1x1x128 : S1x128.ShapeCasts S1x1x128
  slices_S8x1x128_S8x1x1_0_0_0 : S8x1x128.Slices ![0, 0, 0] S8x1x1
  shapeCasts_S8x1x1_S8 : S8x1x1.ShapeCasts S8
  slices_S8x1x128_S8x1x1_0_0_1 : S8x1x128.Slices ![0, 0, 1] S8x1x1
  slices_S8x1x128_S8x1x1_0_0_2 : S8x1x128.Slices ![0, 0, 2] S8x1x1
  bcast_S_S8 : S_.BroadcastsInDim S8 (![] : Fin 0 → Fin S8.rank)
  reducesTo_S8_S_d0 : S8.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x21x32768.size a ≤ S8x21x262144.size a
  hwx0_0 : ∀ i : grid0.Coords, EltTy.bits .i32 = 32 ∨ (Rect.block (s := S8x21x262144) S1x21x32768.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x21x32768.size a ≤ S8x21x262144.size a
  hwx0_1 : ∀ i : grid0.Coords, EltTy.bits .i32 = 32 ∨ (Rect.block (s := S8x21x262144) S1x21x32768.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S8x1x128.size a
  hwx0_2 : ∀ i : grid0.Coords, EltTy.bits .f32 = 32 ∨ (Rect.block (s := S8x1x128) S1x1x128.size (cc0_transform_2 i) (hinb0_2 i)).WholeWords (EltTy.packing .f32)

variable [Facts₀]

abbrev win0_0 : Pipeline.Window sig grid0 :=
  Pipeline.Window.ofSpec (Memref.whole main_v0) S1x21x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x21x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x21x512x512 : Shape := ⟨4, ![8, 21, 512, 512]⟩
abbrev S_ : Shape := ⟨0, ![]⟩
abbrev S8 : Shape := ⟨1, ![8]⟩

abbrev nBuf : Space → Nat
  | .hbm => 47
  | .vmem => 0
  | .smem => 0
  | _ => 0

abbrev bufTy : (tb : Table) → Fin (tcTables nBuf tb) → BufTy
  | .hbm, ⟨0, _⟩ => ⟨S8x21x512x512, .i32⟩
  | .hbm, ⟨1, _⟩ => ⟨S8x21x512x512, .i32⟩
  | .hbm, ⟨2, _⟩ => ⟨S_, .i32⟩
  | .hbm, ⟨3, _⟩ => ⟨S8x21x512x512, .i32⟩
  | .hbm, ⟨4, _⟩ => ⟨S8x21x512x512, .i1⟩
  | .hbm, ⟨5, _⟩ => ⟨S8x21x512x512, .i1⟩
  | .hbm, ⟨6, _⟩ => ⟨S_, .i32⟩
  | .hbm, ⟨7, _⟩ => ⟨S8x21x512x512, .i32⟩
  | .hbm, ⟨8, _⟩ => ⟨S8x21x512x512, .i1⟩
  | .hbm, ⟨9, _⟩ => ⟨S_, .i32⟩
  | .hbm, ⟨10, _⟩ => ⟨S8x21x512x512, .i32⟩
  | .hbm, ⟨11, _⟩ => ⟨S8x21x512x512, .i1⟩
  | .hbm, ⟨12, _⟩ => ⟨S8x21x512x512, .i1⟩
  | .hbm, ⟨13, _⟩ => ⟨S_, .i32⟩
  | .hbm, ⟨14, _⟩ => ⟨S8x21x512x512, .i32⟩
  | .hbm, ⟨15, _⟩ => ⟨S8x21x512x512, .i1⟩
  | .hbm, ⟨16, _⟩ => ⟨S_, .i32⟩
  | .hbm, ⟨17, _⟩ => ⟨S8x21x512x512, .i32⟩
  | .hbm, ⟨18, _⟩ => ⟨S8x21x512x512, .i1⟩
  | .hbm, ⟨19, _⟩ => ⟨S8x21x512x512, .i1⟩
  | .hbm, ⟨20, _⟩ => ⟨S8x21x512x512, .i1⟩
  | .hbm, ⟨21, _⟩ => ⟨S8x21x512x512, .i1⟩
  | .hbm, ⟨22, _⟩ => ⟨S8x21x512x512, .f32⟩
  | .hbm, ⟨23, _⟩ => ⟨S_, .f32⟩
  | .hbm, ⟨24, _⟩ => ⟨S8, .f32⟩
  | .hbm, ⟨25, _⟩ => ⟨S8x21x512x512, .i1⟩
  | .hbm, ⟨26, _⟩ => ⟨S8x21x512x512, .i1⟩
  | .hbm, ⟨27, _⟩ => ⟨S8x21x512x512, .i1⟩
  | .hbm, ⟨28, _⟩ => ⟨S8x21x512x512, .f32⟩
  | .hbm, ⟨29, _⟩ => ⟨S_, .f32⟩
  | .hbm, ⟨30, _⟩ => ⟨S8, .f32⟩
  | .hbm, ⟨31, _⟩ => ⟨S8x21x512x512, .i1⟩
  | .hbm, ⟨32, _⟩ => ⟨S8x21x512x512, .i1⟩
  | .hbm, ⟨33, _⟩ => ⟨S8x21x512x512, .i1⟩
  | .hbm, ⟨34, _⟩ => ⟨S8x21x512x512, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S8, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S8x21x512x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_c_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩

abbrev nD : Nat := 1
abbrev τ : Topo := Topo.v7x

variable {F : FTy → Type} [FloatOps F]

class Facts₀ : Prop where
  bcast_S_S8x21x512x512 : S_.BroadcastsInDim S8x21x512x512 (![] : Fin 0 → Fin S8x21x512x512.rank)
  reducesTo_S8x21x512x512_S8_d1_2_3 : S8x21x512x512.ReducesTo [1, 2, 3] S8
  h_S_ : 0 < S_.numel
  bcast_S_S8 : S_.BroadcastsInDim S8 (![] : Fin 0 → Fin S8.rank)
  reducesTo_S8_S_d0 : S8.ReducesTo [0] S_

variable [Facts₀]

class Facts : Prop extends Facts₀ where

variable [Facts]
-- ==== Proof.Spec.lean ====
/-
  The mathematics of the certificate, stated without either program.

  Per sample `b` both programs count three sets of positions `(c, h, w)` of the two label arrays `g` (ground truth) and
  `p` (prediction): true positives (`g = p`, `1 ≤ g < 21`, `g ≠ 255`), false positives (`g ≠ p`, `1 ≤ p < 21`,
  `g ≠ 255`) and false negatives (`g ≠ p`, `1 ≤ g < 21`, `g ≠ 255`), each position counted as the real number 0 or 1,
  and then apply one and the same closing formula: `tp / max (tp + fp + fn) ε` per sample, summed over the 8 samples and
  divided by 8. The two differ only in the ORDER in which a sample's 21 · 512 · 512 zeros and ones are added: one sum over
  all positions, against 8 chunks of 32768 consecutive positions of each of the 21 rows of the flattened array
  (position `q = 512 h + w`), each chunk summed along its row, the 21 row sums added, and the 8 chunk totals accumulated.
  On the extended reals a finite sum does not depend on order or grouping, so no finiteness is needed anywhere.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

namespace Cert.IoU

open Idealize.ShloMosaic Idealize.ShloMosaic.ValueIdx
open scoped BigOperators

/-! ## Words -/

/-- A one-bit word as a count: the real number 0 or 1. -/
def ind (x : BitVec 1) : EReal := ((x.toNat : ℝ) : EReal)

/-- True positive at one position: labels equal, the ground truth a class `1 … 20` and not the ignore label. -/
def mTP (a b : BitVec 32) : BitVec 1 :=
  IntOp.andi (IntOp.andi (IntOp.cmpi .eq a b) (IntOp.andi (IntOp.cmpi .sge a 1#32) (IntOp.cmpi .slt a 21#32)))
    (IntOp.cmpi .ne a 255#32)

/-- False positive: labels differ, the PREDICTION a class `1 … 20`, the ground truth not the ignore label. -/
def mFP (a b : BitVec 32) : BitVec 1 :=
  IntOp.andi (IntOp.andi (IntOp.xori (IntOp.cmpi .eq a b) 1#1) (IntOp.andi (IntOp.cmpi .sge b 1#32) (IntOp.cmpi .slt b 21#32)))
    (IntOp.cmpi .ne a 255#32)

/-- False negative: labels differ, the GROUND TRUTH a class `1 … 20` and not the ignore label. -/
def mFN (a b : BitVec 32) : BitVec 1 :=
  IntOp.andi (IntOp.andi (IntOp.xori (IntOp.cmpi .eq a b) 1#1) (IntOp.andi (IntOp.cmpi .sge a 1#32) (IntOp.cmpi .slt a 21#32)))
    (IntOp.cmpi .ne a 255#32)

/-- Widening a bit to 32 bits with zeros and reading the word as a signed integer gives the same count 0 or 1 as reading
    the bit unsigned. -/
theorem ind_of_widened (x : BitVec 1) : (((x.setWidth 32).toInt : ℝ) : EReal) = ind x := by
  have h : x = 0#1 ∨ x = 1#1 := by revert x; decide
  rcases h with rfl | rfl <;> simp [ind]

/-- The complement of a bit is its exclusive-or with the set bit. -/
theorem not_bit (x : BitVec 1) : ~~~x = IntOp.xori x 1#1 := by revert x; decide

/-! ## The closing formula, shared by the two programs -/

/-- From the three per-sample counts to the result: `tp / max ((tp + fp) + fn) ε` per sample, the 8 quotients summed from
    zero, the sum divided by 8. Both programs end in exactly these operations on exactly these words, so the proof never
    opens it. -/
def closing (hb : (⟨0, ![]⟩ : Shape).BroadcastsInDim ⟨1, ![8]⟩ (![] : Fin 0 → Fin 1))
    (hr : (⟨1, ![8]⟩ : Shape).ReducesTo [0] ⟨0, ![]⟩) (h0 : 0 < (⟨0, ![]⟩ : Shape).numel)
    (tp fp fn : FVec Ideal ⟨1, ![8]⟩ .f32) : FVec Ideal ⟨0, ![]⟩ .f32 :=
  Host.divf (F := Ideal)
    (Host.reduceAdd (F := Ideal)
      (Host.divf (F := Ideal) tp
        (maximumf (F := Ideal) (addf (F := Ideal) (addf (F := Ideal) tp fp) fn)
          (broadcastInDim ⟨1, ![8]⟩ ![] hb (constant (F := Ideal) ⟨0, ![]⟩ .f32 0x322BCC77#32))))
      (constant (F := Ideal) ⟨0, ![]⟩ .f32 0x00000000#32) hr h0)
    (constant (F := Ideal) ⟨0, ![]⟩ .f32 0x41000000#32)

/-! ## The result as one function of the two label arrays -/

/-- Sample `b`'s count of the positions where the mask `μ` holds: over the 21 rows and the 262144 flattened positions
    `q = 512 h + w` of each. -/
def count (μ : BitVec 32 → BitVec 32 → BitVec 1) (g p : (⟨4, ![8, 21, 512, 512]⟩ : Shape).Idx → BitVec 32) (b : Fin 8) : EReal :=
  ∑ c : Fin 21, ∑ q : Fin 262144,
    ind (μ (g (ix4 b c ⟨q.val / 512, by have := q.isLt; omega⟩ ⟨q.val % 512, by have := q.isLt; omega⟩))
           (p (ix4 b c ⟨q.val / 512, by have := q.isLt; omega⟩ ⟨q.val % 512, by have := q.isLt; omega⟩)))

/-- The 8 samples' counts as a vector. -/
def counts (μ : BitVec 32 → BitVec 32 → BitVec 1) (g p : (⟨4, ![8, 21, 512, 512]⟩ : Shape).Idx → BitVec 32) :
    FVec Ideal ⟨1, ![8]⟩ .f32 := fun j => count μ g p (j 0)

/-- What both programs compute: the closing formula of the three count vectors. -/
def result (hb : (⟨0, ![]⟩ : Shape).BroadcastsInDim ⟨1, ![8]⟩ (![] : Fin 0 → Fin 1))
    (hr : (⟨1, ![8]⟩ : Shape).ReducesTo [0] ⟨0, ![]⟩) (h0 : 0 < (⟨0, ![]⟩ : Shape).numel)
    (g p : (⟨4, ![8, 21, 512, 512]⟩ : Shape).Idx → BitVec 32) : FVec Ideal ⟨0, ![]⟩ .f32 :=
  closing hb hr h0 (counts mTP g p) (counts mFP g p) (counts mFN g p)

/-! ## Sums -/

/-- A sum over `N = m · n` consecutive positions is the sum over `m` runs of the sums over each run's `n` positions. -/
theorem sum_runs {α : Type} [AddCommMonoid α] (m n N : ℕ) (hN : m * n = N) (φ : ℕ → α) :
    ∑ q : Fin N, φ q.val = ∑ k : Fin m, ∑ l : Fin n, φ (n * k.val + l.val) := by
  subst hN
  rw [← Equiv.sum_comp finProdFinEquiv (fun q : Fin (m * n) => φ q.val), Fintype.sum_prod_type]
  refine Finset.sum_congr rfl fun k _ => Finset.sum_congr rfl fun l _ => ?_
  rw [finProdFinEquiv_apply_val, Nat.add_comm]

/-- The chunked order: 8 chunks, in each the 21 rows, in each row the chunk's 32768 positions — is every row's sum over
    all its 262144 positions. -/
theorem sum_chunks (ψ : Fin 21 → ℕ → EReal) :
    ∑ k : Fin 8, ∑ c : Fin 21, ∑ l : Fin 32768, ψ c (32768 * k.val + l.val)
      = ∑ c : Fin 21, ∑ q : Fin 262144, ψ c q.val := by
  rw [Finset.sum_comm]
  exact Finset.sum_congr rfl fun c _ => (sum_runs 8 32768 262144 (by norm_num) (ψ c)).symm

/-- The sum over all 4-d positions of sample `b` is the sum over the 21 rows and the 262144 flattened positions
    `q = 512 h + w` of each. -/
theorem sum_sample (φ : (⟨4, ![8, 21, 512, 512]⟩ : Shape).Idx → EReal) (b : Fin 8) :
    ∑ i ∈ Finset.univ.filter (fun i : (⟨4, ![8, 21, 512, 512]⟩ : Shape).Idx => (i 0).val = b.val), φ i
      = ∑ c : Fin 21, ∑ q : Fin 262144,
          φ (ix4 b c ⟨q.val / 512, by have := q.isLt; omega⟩ ⟨q.val % 512, by have := q.isLt; omega⟩) := by
  rw [← Finset.sum_product' (s := (Finset.univ : Finset (Fin 21))) (t := (Finset.univ : Finset (Fin 262144)))
    (f := fun c q => φ (ix4 b c ⟨q.val / 512, by have := q.isLt; omega⟩ ⟨q.val % 512, by have := q.isLt; omega⟩))]
  refine Finset.sum_nbij'
    (fun i => ((i 1 : Fin 21), (⟨512 * (i 2).val + (i 3).val, by
      have h2 : (i 2).val < 512 := (i 2).isLt
      have h3 : (i 3).val < 512 := (i 3).isLt
      omega⟩ : Fin 262144)))
    (fun cq => ix4 b cq.1 ⟨cq.2.val / 512, by have := cq.2.isLt; omega⟩ ⟨cq.2.val % 512, by have := cq.2.isLt; omega⟩)
    ?_ ?_ ?_ ?_ ?_
  · intro i _; exact Finset.mem_product.2 ⟨Finset.mem_univ _, Finset.mem_univ _⟩
  · intro cq _; exact Finset.mem_filter.2 ⟨Finset.mem_univ _, rfl⟩
  · intro i hi
    have hb : (i 0).val = b.val := (Finset.mem_filter.1 hi).2
    have h3 : (i 3).val < 512 := (i 3).isLt
    funext a
    apply Fin.ext
    match a with
    | ⟨0, _⟩ => exact hb.symm
    | ⟨1, _⟩ => rfl
    | ⟨2, _⟩ => show (512 * (i 2).val + (i 3).val) / 512 = (i 2).val; omega
    | ⟨3, _⟩ => show (512 * (i 2).val + (i 3).val) % 512 = (i 3).val; omega
  · intro cq _
    refine Prod.ext rfl (Fin.ext ?_)
    show 512 * (cq.2.val / 512) + cq.2.val % 512 = cq.2.val
    omega
  · intro i hi
    have hb : (i 0).val = b.val := (Finset.mem_filter.1 hi).2
    have h3 : (i 3).val < 512 := (i 3).isLt
    congr 1
    funext a
    apply Fin.ext
    match a with
    | ⟨0, _⟩ => exact hb
    | ⟨1, _⟩ => rfl
    | ⟨2, _⟩ => show (i 2).val = (512 * (i 2).val + (i 3).val) / 512; omega
    | ⟨3, _⟩ => show (i 3).val = (512 * (i 2).val + (i 3).val) % 512; omega

/-- An accumulator over a line of `N` grid points cut in runs of 8 — reset to a point's own contribution at the head of a
    run, otherwise the point before plus its own — holds after point `n` the contributions of its run up to `n`. -/
theorem run_closed (N : ℕ) (out bv : ℕ → EReal) (h0 : 0 < N → out 0 = bv 0)
    (hA : ∀ n, n + 1 < N → (n + 1) % 8 = 0 → out (n + 1) = bv (n + 1))
    (hB : ∀ n, n + 1 < N → (n + 1) % 8 ≠ 0 → out (n + 1) = out n + bv (n + 1)) :
    ∀ n, n < N → out n = ∑ k ∈ Finset.range (n % 8 + 1), bv (8 * (n / 8) + k) := by
  intro n
  induction n with
  | zero => intro h; simp [h0 h]
  | succ n ih =>
    intro h
    by_cases hm : (n + 1) % 8 = 0
    · have e : 8 * ((n + 1) / 8) + 0 = n + 1 := by omega
      rw [hA n h hm, hm, Finset.sum_range_one, e]
    · rw [hB n h hm, ih (by omega)]
      have e1 : (n + 1) % 8 + 1 = (n % 8 + 1) + 1 := by omega
      have e2 : (n + 1) / 8 = n / 8 := by omega
      have e3 : 8 * (n / 8) + (n % 8 + 1) = n + 1 := by omega
      rw [e1, e2, Finset.sum_range_succ _ (n % 8 + 1), e3]

end Cert.IoU

end
-- ==== Proof.RefSide.lean ====
/-
  The reference's side: its result is the closing formula of the three count vectors.

  The reference builds each mask over the whole 4-d arrays, converts the bits to 0 / 1 and adds them up per sample with one
  sum over the axes (c, h, w): at an index `b` that is zero plus the sum over all 4-d positions whose first coordinate is
  `b`, which is the count in the flattened order (`Cert.IoU.sum_sample`). The masks are read one operation at a time
  (the complement of the equality bit is its exclusive-or with the set bit), and what follows the three sums is the closing
  formula word for word.
-/
import proofs.«153910_j14482629722430_1_alg».proof.Proof.Spec
import proofs.«153910_j14482629722430_1_alg».proof.Proof.Gen.ReferenceIdeal.Run
import proofs.«153910_j14482629722430_1_alg».proof.Proof.Gen.ReferenceIdeal.Read
import Idealize.ShloMosaic.PureOps.Reduce

noncomputable section

namespace Cert.ReferenceIdeal.RefValue

open Cert.ReferenceIdeal Cert.ReferenceIdeal.Gen Cert.ReferenceIdeal.Read Cert.IoU
open Idealize.ShloMosaic Idealize.ShloMosaic.ValueIdx Idealize.ShloMosaic.TcCoe Idealize.SL.Sem
open scoped BigOperators

/-- The per-sample sum of a bit array converted to 0 / 1, from zero: the count over the sample's rows and flattened
    positions. -/
theorem sum_bits (M : IVec S8x21x512x512 1) (j : S8.Idx) :
    Host.reduceAdd (F := Ideal) (uitofp .f32 M) (constant (F := Ideal) S_ .f32 0x00000000#32) reducesTo_S8x21x512x512_S8_d1_2_3 h_S_ j
      = ∑ c : Fin 21, ∑ q : Fin 262144,
          ind (M (ix4 (j 0) c ⟨q.val / 512, by have := q.isLt; omega⟩ ⟨q.val % 512, by have := q.isLt; omega⟩)) := by
  simp only [Host.reduceAdd, Ideal.hostReduceAdd_def]
  unfold Ideal.hostReduceAdd
  rw [show (constant (F := Ideal) S_ .f32 0x00000000#32) (Shape.Idx.first h_S_) = (0 : EReal) from Ideal.ofBits_zero_f32, zero_add]
  have hf : (Finset.univ.filter fun i : S8x21x512x512.Idx => reducesTo_S8x21x512x512_S8_d1_2_3.drop i = j)
      = Finset.univ.filter fun i : S8x21x512x512.Idx => (i 0).val = (j 0).val := by
    refine Finset.filter_congr fun i _ => ⟨fun h => ?_, fun h => ?_⟩
    · rw [← h]; exact (Shape.ReducesTo.drop_apply_val_of_eq reducesTo_S8x21x512x512_S8_d1_2_3 i 0 0).symm
    · funext b
      apply Fin.ext
      match b with
      | ⟨0, _⟩ => exact (Shape.ReducesTo.drop_apply_val_of_eq reducesTo_S8x21x512x512_S8_d1_2_3 i 0 0).trans h
  rw [hf]
  exact sum_sample (fun i => ind (M i)) (j 0)

/-- The three label constants the masks compare against, as the reference spreads them over the array. -/
theorem ignore_const (i : S8x21x512x512.Idx) : val_main_v0 (F := Ideal) i = 255#32 := (val_main_v0_apply i).trans rfl
theorem lo_const_g (i : S8x21x512x512.Idx) : val_main_v3 (F := Ideal) i = 1#32 := (val_main_v3_apply i).trans rfl
theorem hi_const_g (i : S8x21x512x512.Idx) : val_main_v5 (F := Ideal) i = 21#32 := (val_main_v5_apply i).trans rfl
theorem lo_const_p (i : S8x21x512x512.Idx) : val_main_v8 (F := Ideal) i = 1#32 := (val_main_v8_apply i).trans rfl
theorem hi_const_p (i : S8x21x512x512.Idx) : val_main_v10 (F := Ideal) i = 21#32 := (val_main_v10_apply i).trans rfl

/-- The three masks at a position, read one operation at a time. -/
theorem mask_tp (g p : (⟨S8x21x512x512, .i32⟩ : BufTy).Contents (Elt Ideal)) (i : S8x21x512x512.Idx) :
    val_main_v14 (F := Ideal) g p i = mTP (g i) (p i) := by
  rw [val_main_v14_apply, val_main_v13_apply, val_main_v2_apply, val_main_v7_apply, val_main_v4_apply, val_main_v6_apply,
    val_main_v1_apply, ignore_const, lo_const_g, hi_const_g]
  rfl

theorem mask_fp (g p : (⟨S8x21x512x512, .i32⟩ : BufTy).Contents (Elt Ideal)) (i : S8x21x512x512.Idx) :
    val_main_v19 (F := Ideal) g p i = mFP (g i) (p i) := by
  rw [val_main_v19_apply, val_main_v18_apply, val_main_v17_apply, val_main_v2_apply, val_main_v12_apply, val_main_v9_apply,
    val_main_v11_apply, val_main_v1_apply, ignore_const, lo_const_p, hi_const_p, not_bit]
  rfl

theorem mask_fn (g p : (⟨S8x21x512x512, .i32⟩ : BufTy).Contents (Elt Ideal)) (i : S8x21x512x512.Idx) :
    val_main_v24 (F := Ideal) g p i = mFN (g i) (p i) := by
  rw [val_main_v24_apply, val_main_v23_apply, val_main_v22_apply, val_main_v2_apply, val_main_v7_apply, val_main_v4_apply,
    val_main_v6_apply, val_main_v1_apply, ignore_const, lo_const_g, hi_const_g, not_bit]
  rfl

/-- The three per-sample sums are the three count vectors. -/
theorem tp_eq (g p : (⟨S8x21x512x512, .i32⟩ : BufTy).Contents (Elt Ideal)) : val_main_v16 (F := Ideal) g p = counts mTP g p := by
  funext j
  unfold val_main_v16 val_main_v15 val_main_cst
  rw [sum_bits]
  show _ = Cert.IoU.count mTP g p (j 0)
  unfold Cert.IoU.count
  refine Finset.sum_congr rfl fun c _ => Finset.sum_congr rfl fun q _ => ?_
  rw [mask_tp]

theorem fp_eq (g p : (⟨S8x21x512x512, .i32⟩ : BufTy).Contents (Elt Ideal)) : val_main_v21 (F := Ideal) g p = counts mFP g p := by
  funext j
  unfold val_main_v21 val_main_v20 val_main_cst_4
  rw [sum_bits]
  show _ = Cert.IoU.count mFP g p (j 0)
  unfold Cert.IoU.count
  refine Finset.sum_congr rfl fun c _ => Finset.sum_congr rfl fun q _ => ?_
  rw [mask_fp]

theorem fn_eq (g p : (⟨S8x21x512x512, .i32⟩ : BufTy).Contents (Elt Ideal)) : val_main_v26 (F := Ideal) g p = counts mFN g p := by
  funext j
  unfold val_main_v26 val_main_v25 val_main_cst_5
  rw [sum_bits]
  show _ = Cert.IoU.count mFN g p (j 0)
  unfold Cert.IoU.count
  refine Finset.sum_congr rfl fun c _ => Finset.sum_congr rfl fun q _ => ?_
  rw [mask_fn]

/-- The reference's last stage is the closing formula of its three sums, operation for operation. -/
theorem stage_eq (g p : (⟨S8x21x512x512, .i32⟩ : BufTy).Contents (Elt Ideal)) :
    val_main_v33 (F := Ideal) g p
      = closing bcast_S_S8 reducesTo_S8_S_d0 h_S_ (val_main_v16 (F := Ideal) g p) (val_main_v21 (F := Ideal) g p) (val_main_v26 (F := Ideal) g p) := rfl

/-- So the reference's result is the specification's. -/
theorem result_eq (g p : (⟨S8x21x512x512, .i32⟩ : BufTy).Contents (Elt Ideal)) :
    val_main_v33 (F := Ideal) g p = result bcast_S_S8 reducesTo_S8_S_d0 h_S_ g p := by
  rw [stage_eq, tp_eq, fp_eq, fn_eq]
  rfl

end Cert.ReferenceIdeal.RefValue

end
-- ==== Proof.KPay.lean ====
/-
  The kernel body's arithmetic at one grid point, read at an index (at the ideal values).

  At a point the body holds one sample's chunk of each label array as a [1, 21, 32768] block. It drops the unit axis,
  builds the three masks position by position, turns each bit into 0 / 1 (widening to 32 bits and converting, which
  gives the same 0 / 1 as the bit itself), sums each of the 21 rows over its 32768 lanes, sums the 21 row sums, and lays
  the three totals in lanes 0, 1, 2 of a [1, 1, 128] vector (zeros behind) which it adds to what the output block held.
-/
import proofs.«153910_j14482629722430_1_alg».proof.Proof.Spec
import proofs.«153910_j14482629722430_1_alg».proof.Proof.Gen.KernelIdeal.Skeleton
import Idealize.ShloMosaic.Lib.Pipeline.Value
import Idealize.ShloMosaic.PureOps.Ideal.Laws

noncomputable section

namespace Cert.KernelIdeal.KValue

open Cert.KernelIdeal Cert.KernelIdeal.Gen Cert.IoU
open Idealize.ShloMosaic Idealize.ShloMosaic.ValueIdx Idealize.ShloMosaic.TcCoe Idealize.SL.Sem
open scoped BigOperators

/-! ## Sums along one axis -/

/-- A row's sum over the lanes of a [21, 32768] vector. -/
theorem lane_sum (src : FVec Ideal S21x32768 .f32) (c : Fin 21) :
    multiReduction (F := Ideal) .add [1] S21 src 0x00000000#32 reduces_S21x32768_S21 (.inl rfl) rfl (ix1 c)
      = ∑ l : Fin 32768, src (ix2 c l) :=
  (Ideal.multiReduction_add_single src 0x00000000#32 reduces_S21x32768_S21 (.inl rfl) rfl (ix1 c)).trans
    (Finset.sum_congr rfl fun l _ => congrArg src (funext fun a => Fin.ext (by
      match a with
      | ⟨0, _⟩ => rfl
      | ⟨1, _⟩ => rfl)))

/-- The sum of a [21, 1] column. -/
theorem col_sum (v : FVec Ideal S21x1 .f32) :
    multiReduction (F := Ideal) .add [0] S1 v 0x00000000#32 reduces_S21x1_S1 (.inl rfl) rfl (ix1 (0 : Fin 1))
      = ∑ c : Fin 21, v (ix2 c (0 : Fin 1)) :=
  (Ideal.multiReduction_add_single v 0x00000000#32 reduces_S21x1_S1 (.inl rfl) rfl (ix1 (0 : Fin 1))).trans
    (Finset.sum_congr rfl fun c _ => congrArg v (funext fun a => Fin.ext (by
      match a with
      | ⟨0, _⟩ => rfl
      | ⟨1, _⟩ => rfl)))

/-! ## The masks at a position of the block -/

/-- Dropping the block's unit axis: row `c`, lane `l` of the [21, 32768] view is entry (0, c, l) of the block. -/
theorem rows_g (x : Vec Ideal S1x21x32768 .i32) (c : Fin 21) (l : Fin 32768) :
    k0_pay3 (F := Ideal) x (ix2 c l) = x (ix3 (0 : Fin 1) c l) := by
  unfold k0_pay3
  refine shapeCast_apply x shapeCasts_S1x21x32768_S21x32768 (ix2 c l) (ix3 (0 : Fin 1) c l) ?_
  rw [Shape.rowMajor_val_three, Shape.rowMajor_val_two]
  show ((0 : Nat) * 21 + c.val) * 32768 + l.val = c.val * 32768 + l.val
  omega

theorem rows_p (x : Vec Ideal S1x21x32768 .i32) (c : Fin 21) (l : Fin 32768) :
    k0_pay4 (F := Ideal) x (ix2 c l) = x (ix3 (0 : Fin 1) c l) := by
  unfold k0_pay4
  refine shapeCast_apply x shapeCasts_S1x21x32768_S21x32768 (ix2 c l) (ix3 (0 : Fin 1) c l) ?_
  rw [Shape.rowMajor_val_three, Shape.rowMajor_val_two]
  show ((0 : Nat) * 21 + c.val) * 32768 + l.val = c.val * 32768 + l.val
  omega

/-- The ground truth is not the ignore label. -/
theorem valid_bit (x0 : Vec Ideal S1x21x32768 .i32) (c : Fin 21) (l : Fin 32768) :
    k0_pay5 (F := Ideal) x0 (ix2 c l) = IntOp.cmpi .ne (x0 (ix3 (0 : Fin 1) c l)) 255#32 := by
  unfold k0_pay5
  show IntOp.cmpi .ne (k0_pay3 (F := Ideal) x0 (ix2 c l)) 255#32 = _
  rw [rows_g]

/-- The two labels are equal. -/
theorem eq_bit (x0 x1 : Vec Ideal S1x21x32768 .i32) (c : Fin 21) (l : Fin 32768) :
    k0_pay6 (F := Ideal) x0 x1 (ix2 c l) = IntOp.cmpi .eq (x0 (ix3 (0 : Fin 1) c l)) (x1 (ix3 (0 : Fin 1) c l)) := by
  unfold k0_pay6
  show IntOp.cmpi .eq (k0_pay3 (F := Ideal) x0 (ix2 c l)) (k0_pay4 (F := Ideal) x1 (ix2 c l)) = _
  rw [rows_g, rows_p]

/-- The ground truth is a class 1 … 20. -/
theorem gt_in_bit (x0 : Vec Ideal S1x21x32768 .i32) (c : Fin 21) (l : Fin 32768) :
    k0_pay7 (F := Ideal) x0 (ix2 c l)
      = IntOp.andi (IntOp.cmpi .sge (x0 (ix3 (0 : Fin 1) c l)) 1#32) (IntOp.cmpi .slt (x0 (ix3 (0 : Fin 1) c l)) 21#32) := by
  unfold k0_pay7
  show IntOp.andi (IntOp.cmpi .sge (k0_pay3 (F := Ideal) x0 (ix2 c l)) 1#32) (IntOp.cmpi .slt (k0_pay3 (F := Ideal) x0 (ix2 c l)) 21#32) = _
  rw [rows_g]

/-! ## The three row sums -/

/-- Row `c`'s true positives in the chunk. -/
theorem tp_row (x0 x1 : Vec Ideal S1x21x32768 .i32) (c : Fin 21) :
    k0_pay8 (F := Ideal) x0 x1 (ix2 c (0 : Fin 1))
      = ∑ l : Fin 32768, ind (mTP (x0 (ix3 (0 : Fin 1) c l)) (x1 (ix3 (0 : Fin 1) c l))) := by
  unfold k0_pay8
  refine (shapeCast_apply _ shapeCasts_S21_S21x1 (ix2 c (0 : Fin 1)) (ix1 c) ?_).trans ?_
  · rw [Shape.rowMajor_val_one, Shape.rowMajor_val_two]
    show c.val = c.val * 1 + 0
    omega
  refine (lane_sum _ c).trans (Finset.sum_congr rfl fun l _ => ?_)
  show ((((IntOp.andi (IntOp.andi (k0_pay6 (F := Ideal) x0 x1 (ix2 c l)) (k0_pay7 (F := Ideal) x0 (ix2 c l)))
      (k0_pay5 (F := Ideal) x0 (ix2 c l))).setWidth 32).toInt : ℝ) : EReal) = _
  rw [ind_of_widened, eq_bit, gt_in_bit, valid_bit]
  rfl

/-- Row `c`'s false positives in the chunk. -/
theorem fp_row (x0 x1 : Vec Ideal S1x21x32768 .i32) (c : Fin 21) :
    k0_pay9 (F := Ideal) x0 x1 (ix2 c (0 : Fin 1))
      = ∑ l : Fin 32768, ind (mFP (x0 (ix3 (0 : Fin 1) c l)) (x1 (ix3 (0 : Fin 1) c l))) := by
  unfold k0_pay9
  refine (shapeCast_apply _ shapeCasts_S21_S21x1 (ix2 c (0 : Fin 1)) (ix1 c) ?_).trans ?_
  · rw [Shape.rowMajor_val_one, Shape.rowMajor_val_two]
    show c.val = c.val * 1 + 0
    omega
  refine (lane_sum _ c).trans (Finset.sum_congr rfl fun l _ => ?_)
  show ((((IntOp.andi (IntOp.andi (IntOp.xori (k0_pay6 (F := Ideal) x0 x1 (ix2 c l)) 1#1)
        (IntOp.andi (IntOp.cmpi .sge (k0_pay4 (F := Ideal) x1 (ix2 c l)) 1#32) (IntOp.cmpi .slt (k0_pay4 (F := Ideal) x1 (ix2 c l)) 21#32)))
      (k0_pay5 (F := Ideal) x0 (ix2 c l))).setWidth 32).toInt : ℝ) : EReal) = _
  rw [ind_of_widened, eq_bit, rows_p, valid_bit]
  rfl

/-- Row `c`'s false negatives in the chunk. -/
theorem fn_row (x0 x1 : Vec Ideal S1x21x32768 .i32) (c : Fin 21) :
    k0_pay10 (F := Ideal) x0 x1 (ix1 c)
      = ∑ l : Fin 32768, ind (mFN (x0 (ix3 (0 : Fin 1) c l)) (x1 (ix3 (0 : Fin 1) c l))) := by
  unfold k0_pay10
  refine (lane_sum _ c).trans (Finset.sum_congr rfl fun l _ => ?_)
  show ((((IntOp.andi (IntOp.andi (IntOp.xori (k0_pay6 (F := Ideal) x0 x1 (ix2 c l)) 1#1) (k0_pay7 (F := Ideal) x0 (ix2 c l)))
      (k0_pay5 (F := Ideal) x0 (ix2 c l))).setWidth 32).toInt : ℝ) : EReal) = _
  rw [ind_of_widened, eq_bit, gt_in_bit, valid_bit]
  rfl

end Cert.KernelIdeal.KValue

end
-- ==== Proof.KStats.lean ====
/-
  The value the body stores, read at lanes 0, 1, 2 (at the ideal values).

  The body sums each of its three [21]-row-sum vectors, lays the three totals side by side as a [1, 3] vector, pads it
  with 125 zeros to [1, 128], views it as [1, 1, 128] and adds it to what the output block held. So lane 0 of the stored
  vector is the old lane 0 plus the 21 true-positive row sums, lane 1 the same of the false positives, lane 2 of the
  false negatives.
-/
import proofs.«153910_j14482629722430_1_alg».proof.Proof.KPay

noncomputable section

namespace Cert.KernelIdeal.KValue

open Cert.KernelIdeal Cert.KernelIdeal.Gen Cert.IoU
open Idealize.ShloMosaic Idealize.ShloMosaic.ValueIdx Idealize.ShloMosaic.TcCoe Idealize.SL.Sem
open scoped BigOperators

/-- A one-entry vector seen as a [1, 1] vector. -/
theorem one_as_1x1 (v : FVec Ideal S1 .f32) :
    shapeCast S1x1 v shapeCasts_S1_S1x1 (ix2 (0 : Fin 1) (0 : Fin 1)) = v (ix1 (0 : Fin 1)) := by
  refine shapeCast_apply v shapeCasts_S1_S1x1 (ix2 (0 : Fin 1) (0 : Fin 1)) (ix1 (0 : Fin 1)) ?_
  rw [Shape.rowMajor_val_one, Shape.rowMajor_val_two]
  rfl

/-- The three totals side by side: entry `k` of the [1, 3] vector is the `k`-th total. -/
theorem three_0 (a0 a1 a2 : FVec Ideal S1x1 .f32) :
    concatenate S1x3 1 [⟨S1x1, a0⟩, ⟨S1x1, a1⟩, ⟨S1x1, a2⟩] concatenates_S1x1_S1x1_S1x1_S1x3_d1 (ix2 (0 : Fin 1) (0 : Fin 3))
      = a0 (ix2 (0 : Fin 1) (0 : Fin 1)) :=
  concatenate_apply_piece 1 [⟨S1x1, a0⟩, ⟨S1x1, a1⟩, ⟨S1x1, a2⟩] concatenates_S1x1_S1x1_S1x1_S1x3_d1 (ix2 (0 : Fin 1) (0 : Fin 3)) 0
    (by show 0 < 3; omega) S1x1 a0 rfl rfl 0 rfl
    (ix2 (0 : Fin 1) (0 : Fin 1)) (fun b hb => by
      match b with
      | ⟨0, _⟩ => rfl
      | ⟨1, _⟩ => exact absurd rfl hb) rfl

theorem three_1 (a0 a1 a2 : FVec Ideal S1x1 .f32) :
    concatenate S1x3 1 [⟨S1x1, a0⟩, ⟨S1x1, a1⟩, ⟨S1x1, a2⟩] concatenates_S1x1_S1x1_S1x1_S1x3_d1 (ix2 (0 : Fin 1) (1 : Fin 3))
      = a1 (ix2 (0 : Fin 1) (0 : Fin 1)) :=
  concatenate_apply_piece 1 [⟨S1x1, a0⟩, ⟨S1x1, a1⟩, ⟨S1x1, a2⟩] concatenates_S1x1_S1x1_S1x1_S1x3_d1 (ix2 (0 : Fin 1) (1 : Fin 3)) 1
    (by show 1 < 3; omega) S1x1 a1 rfl rfl 1 rfl
    (ix2 (0 : Fin 1) (0 : Fin 1)) (fun b hb => by
      match b with
      | ⟨0, _⟩ => rfl
      | ⟨1, _⟩ => exact absurd rfl hb) rfl

theorem three_2 (a0 a1 a2 : FVec Ideal S1x1 .f32) :
    concatenate S1x3 1 [⟨S1x1, a0⟩, ⟨S1x1, a1⟩, ⟨S1x1, a2⟩] concatenates_S1x1_S1x1_S1x1_S1x3_d1 (ix2 (0 : Fin 1) (2 : Fin 3))
      = a2 (ix2 (0 : Fin 1) (0 : Fin 1)) :=
  concatenate_apply_piece 1 [⟨S1x1, a0⟩, ⟨S1x1, a1⟩, ⟨S1x1, a2⟩] concatenates_S1x1_S1x1_S1x1_S1x3_d1 (ix2 (0 : Fin 1) (2 : Fin 3)) 2
    (by show 2 < 3; omega) S1x1 a2 rfl rfl 2 rfl
    (ix2 (0 : Fin 1) (0 : Fin 1)) (fun b hb => by
      match b with
      | ⟨0, _⟩ => rfl
      | ⟨1, _⟩ => exact absurd rfl hb) rfl

/-- Padded with zeros and viewed as [1, 1, 128]: lane `k < 3` is entry `k` of the [1, 3] vector. -/
theorem padded_lane (s : FVec Ideal S1x3 .f32) (z : FVec Ideal S1x125 .f32) (k : Fin 3) :
    shapeCast S1x1x128 (concatenate S1x128 1 [⟨S1x3, s⟩, ⟨S1x125, z⟩] concatenates_S1x3_S1x125_S1x128_d1) shapeCasts_S1x128_S1x1x128
        (ix3 (0 : Fin 1) (0 : Fin 1) (⟨k.val, by have := k.isLt; omega⟩ : Fin 128))
      = s (ix2 (0 : Fin 1) k) := by
  refine (shapeCast_apply _ shapeCasts_S1x128_S1x1x128 (ix3 (0 : Fin 1) (0 : Fin 1) (⟨k.val, by have := k.isLt; omega⟩ : Fin 128))
    (ix2 (0 : Fin 1) (⟨k.val, by have := k.isLt; omega⟩ : Fin 128)) ?_).trans ?_
  · rw [Shape.rowMajor_val_two, Shape.rowMajor_val_three]
    show (0 : Nat) * 128 + k.val = ((0 : Nat) * 1 + 0) * 128 + k.val
    omega
  exact concatenate_pair_apply_left 1 s z concatenates_S1x3_S1x125_S1x128_d1 _ rfl (ix2 (0 : Fin 1) k) (fun b => by
    match b with
    | ⟨0, _⟩ => rfl
    | ⟨1, _⟩ => rfl)

/-- A [21] vector seen as a [21, 1] column. -/
theorem col_of_vec (v : FVec Ideal S21 .f32) (c : Fin 21) :
    shapeCast S21x1 v shapeCasts_S21_S21x1 (ix2 c (0 : Fin 1)) = v (ix1 c) := by
  refine shapeCast_apply v shapeCasts_S21_S21x1 (ix2 c (0 : Fin 1)) (ix1 c) ?_
  rw [Shape.rowMajor_val_one, Shape.rowMajor_val_two]
  show c.val = c.val * 1 + 0
  omega

/-- Lane 0 of the stored vector: the old lane 0 plus the true-positive row sums. -/
theorem stored_0 (v31 v35 : FVec Ideal S21x1 .f32) (v38 : FVec Ideal S21 .f32) (v49 : Vec Ideal S1x1x128 .f32) :
    k0_pay1 (F := Ideal) v31 v35 v38 v49 (ix3 (0 : Fin 1) (0 : Fin 1) (0 : Fin 128))
      = v49 (ix3 (0 : Fin 1) (0 : Fin 1) (0 : Fin 128)) + ∑ c : Fin 21, v31 (ix2 c (0 : Fin 1)) := by
  unfold k0_pay1
  dsimp only
  rw [addf_apply, shapeCast_self]
  refine congrArg (v49 (ix3 (0 : Fin 1) (0 : Fin 1) (0 : Fin 128)) + ·) ?_
  refine (padded_lane _ _ (0 : Fin 3)).trans ?_
  rw [three_0, one_as_1x1, col_sum]

/-- Lane 1: the old lane 1 plus the false-positive row sums. -/
theorem stored_1 (v31 v35 : FVec Ideal S21x1 .f32) (v38 : FVec Ideal S21 .f32) (v49 : Vec Ideal S1x1x128 .f32) :
    k0_pay1 (F := Ideal) v31 v35 v38 v49 (ix3 (0 : Fin 1) (0 : Fin 1) (1 : Fin 128))
      = v49 (ix3 (0 : Fin 1) (0 : Fin 1) (1 : Fin 128)) + ∑ c : Fin 21, v35 (ix2 c (0 : Fin 1)) := by
  unfold k0_pay1
  dsimp only
  rw [addf_apply, shapeCast_self]
  refine congrArg (v49 (ix3 (0 : Fin 1) (0 : Fin 1) (1 : Fin 128)) + ·) ?_
  refine (padded_lane _ _ (1 : Fin 3)).trans ?_
  rw [three_1, one_as_1x1, col_sum]

/-- Lane 2: the old lane 2 plus the false-negative row sums. -/
theorem stored_2 (v31 v35 : FVec Ideal S21x1 .f32) (v38 : FVec Ideal S21 .f32) (v49 : Vec Ideal S1x1x128 .f32) :
    k0_pay1 (F := Ideal) v31 v35 v38 v49 (ix3 (0 : Fin 1) (0 : Fin 1) (2 : Fin 128))
      = v49 (ix3 (0 : Fin 1) (0 : Fin 1) (2 : Fin 128)) + ∑ c : Fin 21, v38 (ix1 c) := by
  unfold k0_pay1
  dsimp only
  rw [addf_apply, shapeCast_self]
  refine congrArg (v49 (ix3 (0 : Fin 1) (0 : Fin 1) (2 : Fin 128)) + ·) ?_
  refine (padded_lane _ _ (2 : Fin 3)).trans ?_
  rw [three_2, one_as_1x1, col_sum]
  exact Finset.sum_congr rfl fun c _ => col_of_vec v38 c

end Cert.KernelIdeal.KValue

end
-- ==== Proof.KPieces.lean ====
/-
  What one grid point leaves in the output block's staging buffer, as a value.

  At the head of a run of 8 points (the chunk index is 0) the body first stores zeros and then adds the point's statistics
  vector to what it reads back, the zeros; at every other point it adds the statistics vector to what the point before
  left. In both cases the one covering store's value is the body's arithmetic applied to the two input blocks and the
  block read back.
-/
import proofs.«153910_j14482629722430_1_alg».proof.Proof.Gen.KernelIdeal.Frame
import Idealize.ShloMosaic.Lib.Pipeline.Value
import Idealize.ShloMosaic.Lib.Tactic

noncomputable section

namespace Cert.KernelIdeal.KValue

open Cert.KernelIdeal Cert.KernelIdeal.Gen
open Idealize.ShloMosaic Idealize.ShloMosaic.TcCoe Idealize.SL.Sem Idealize.ShloMosaic.Tactic

variable {F : FTy → Type} [FloatOps F]

/-- The zero offsets of a whole-block access. -/
theorem hz : (![0, 0, 0] : Fin 3 → Nat) = fun _ => 0 := funext fun a => by fin_cases a <;> rfl

/-- Not at the head of a run: the statistics vector added to the block the point before left (`xo`). -/
theorem out_B (c : Dev nD) (i : grid0.Coords) (a2 : Memref sig .tc .vmem S1x21x32768 .i32) (h2 : a2.IsWhole)
    (a3 : Memref sig .tc .vmem S1x21x32768 .i32) (h3 : a3.IsWhole) (a4 : Memref sig .tc .vmem S1x1x128 .f32) (h4 : a4.IsWhole)
    (hc : ¬cond0_0 i) (x0 x1 : Vec F S1x21x32768 .i32) (xo : Vec F S1x1x128 .f32) :
    out0_B_2 c i a2 h2 a3 h3 a4 h4 hc x0 x1 xo = k0_pay1 (k0_pay8 x0 x1) (k0_pay9 x0 x1) (k0_pay10 x0 x1) xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz]
  simp only [View.readAt_eq_ld, h2.read_unread, h3.read_unread, h4.read_unread, View.ld_unit_zero (S := S1x21x32768) hz,
    View.ld_unit_zero (S := S1x1x128) hz]

/-- At the head of a run: the statistics vector added to the zero block just stored. -/
theorem out_A (c : Dev nD) (i : grid0.Coords) (a2 : Memref sig .tc .vmem S1x21x32768 .i32) (h2 : a2.IsWhole)
    (a3 : Memref sig .tc .vmem S1x21x32768 .i32) (h3 : a3.IsWhole) (a4 : Memref sig .tc .vmem S1x1x128 .f32) (h4 : a4.IsWhole)
    (hc : cond0_0 i) (x0 x1 : Vec F S1x21x32768 .i32) :
    out0_A_2 c i a2 h2 a3 h3 a4 h4 hc x0 x1
      = k0_pay1 (k0_pay8 x0 x1) (k0_pay9 x0 x1) (k0_pay10 x0 x1) (k0_pay2 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x1x128) hz, View.readCov_unit_zero (S := S1x1x128) _ hz]
  simp only [View.readAt_eq_ld, h2.read_unread, h3.read_unread, View.ld_unit_zero (S := S1x21x32768) hz,
    View.ld_unit_zero (S := S1x1x128) hz]

end Cert.KernelIdeal.KValue

end
-- ==== Proof.KBlocks.lean ====
/-
  Where a grid point's input blocks sit in the label arrays.

  Point `t = 8 b + k` of the 8 × 8 grid handles chunk `k` of sample `b`: its block of either flattened [8, 21, 262144]
  array is rows 0 … 20 of sample `b`, positions `32768 k … 32768 k + 32767`. The flattened arrays are the host's
  reshapes of the two 4-d arguments, so flattened position `q` of a row is entry `(q / 512, q % 512)` of the row's
  512 × 512 image.
-/
import proofs.«153910_j14482629722430_1_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

namespace Cert.KernelIdeal.KValue

open Cert.KernelIdeal Cert.KernelIdeal.Gen
open Idealize.ShloMosaic Idealize.ShloMosaic.ValueIdx Idealize.ShloMosaic.TcCoe Idealize.SL.Sem Idealize.ShloMosaic.Tactic
open Idealize.ShloMosaic.StableHlo

variable {F : FTy → Type} [FloatOps F]
variable (m : (ℓ : Loc nD τ sig) → Buf (Elt F) ℓ)

/-- The two input blocks at a point, typed as the body sees them. -/
abbrev gblk (c : Dev nD) (t : Fin cfg0.N) : Vec F S1x21x32768 .i32 := iblk m c 0 t
abbrev pblk (c : Dev nD) (t : Fin cfg0.N) : Vec F S1x21x32768 .i32 := iblk m c 1 t

/-- The flattened label arrays as the region finds them. -/
abbrev garr (c : Dev nD) : Vec F S8x21x262144 .i32 := V m c main_v0
abbrev parr (c : Dev nD) : Vec F S8x21x262144 .i32 := V m c main_v1

/-- Both input windows' block index at point `t` is (sample `t / 8`, 0, chunk `t % 8`): decided over the 64 points. -/
theorem idx_g : ∀ t : Fin cfg0.N, win0_0.index t (0 : Fin 3) = t.val / 8 ∧ win0_0.index t (1 : Fin 3) = 0 ∧ win0_0.index t (2 : Fin 3) = t.val % 8 :=
  (by decide +kernel : ∀ t : Fin grid0.N, win0_0.index t (0 : Fin 3) = t.val / 8 ∧ win0_0.index t (1 : Fin 3) = 0 ∧ win0_0.index t (2 : Fin 3) = t.val % 8)
theorem idx_p : ∀ t : Fin cfg0.N, win0_1.index t (0 : Fin 3) = t.val / 8 ∧ win0_1.index t (1 : Fin 3) = 0 ∧ win0_1.index t (2 : Fin 3) = t.val % 8 :=
  (by decide +kernel : ∀ t : Fin grid0.N, win0_1.index t (0 : Fin 3) = t.val / 8 ∧ win0_1.index t (1 : Fin 3) = 0 ∧ win0_1.index t (2 : Fin 3) = t.val % 8)

theorem lt_64 (t : Fin cfg0.N) : t.val < 64 := lt_of_lt_of_eq t.isLt (show cfg0.N = 64 from N_0)

/-- Entry (0, r, l) of the ground-truth block at point `t` is the flattened array at sample `t / 8`, row `r`, position
    `32768 (t % 8) + l`. -/
theorem gblk_apply (c : Dev nD) (t : Fin cfg0.N) (r : Fin 21) (l : Fin 32768) :
    gblk m c t (ix3 (0 : Fin 1) r l)
      = garr m c (ix3 (⟨t.val / 8, by have := lt_64 t; omega⟩ : Fin 8) r
          (⟨32768 * (t.val % 8) + l.val, by have := l.isLt; omega⟩ : Fin 262144)) := by
  unfold gblk iblk
  rw [View.read_apply]
  show V m c main_v0 _ = V m c main_v0 _
  refine congrArg (V m c main_v0) (funext fun a => Fin.ext ?_)
  match a with
  | ⟨0, _⟩ => show win0_0.index t 0 * 1 + 1 * 0 = t.val / 8; rw [(idx_g t).1]; omega
  | ⟨1, _⟩ => show win0_0.index t 1 * 21 + 1 * r.val = r.val; rw [(idx_g t).2.1]; omega
  | ⟨2, _⟩ => show win0_0.index t 2 * 32768 + 1 * l.val = 32768 * (t.val % 8) + l.val; rw [(idx_g t).2.2]; omega

/-- The same of the prediction block. -/
theorem pblk_apply (c : Dev nD) (t : Fin cfg0.N) (r : Fin 21) (l : Fin 32768) :
    pblk m c t (ix3 (0 : Fin 1) r l)
      = parr m c (ix3 (⟨t.val / 8, by have := lt_64 t; omega⟩ : Fin 8) r
          (⟨32768 * (t.val % 8) + l.val, by have := l.isLt; omega⟩ : Fin 262144)) := by
  unfold pblk iblk
  rw [View.read_apply]
  show V m c main_v1 _ = V m c main_v1 _
  refine congrArg (V m c main_v1) (funext fun a => Fin.ext ?_)
  match a with
  | ⟨0, _⟩ => show win0_1.index t 0 * 1 + 1 * 0 = t.val / 8; rw [(idx_p t).1]; omega
  | ⟨1, _⟩ => show win0_1.index t 1 * 21 + 1 * r.val = r.val; rw [(idx_p t).2.1]; omega
  | ⟨2, _⟩ => show win0_1.index t 2 * 32768 + 1 * l.val = 32768 * (t.val % 8) + l.val; rw [(idx_p t).2.2]; omega

/-- The flattened ground truth is the host's reshape of the first argument, -/
theorem garr_eq (c : Dev nD) :
    garr m c = shapeCast S8x21x262144 (m ((c : Thread nD τ).loc main_arg0)) shapeCasts_S8x21x512x512_S8x21x262144 := by
  show StableHlo.after hostOps0 (fun b => m (c, b)) (Proc.devRef .tc main_v0) = _
  after_results
  rfl

/-- and the flattened prediction of the second. -/
theorem parr_eq (c : Dev nD) :
    parr m c = shapeCast S8x21x262144 (m ((c : Thread nD τ).loc main_arg1)) shapeCasts_S8x21x512x512_S8x21x262144 := by
  show StableHlo.after hostOps0 (fun b => m (c, b)) (Proc.devRef .tc main_v1) = _
  after_results
  rfl

/-- Flattening a row's 512 × 512 image: position `q` is entry `(q / 512, q % 512)`. -/
theorem flat_apply {α : Type} (x : S8x21x512x512.Idx → α) (b : Fin 8) (r : Fin 21) (q : Fin 262144) :
    shapeCast S8x21x262144 x shapeCasts_S8x21x512x512_S8x21x262144 (ix3 b r q)
      = x (ix4 b r (⟨q.val / 512, by have := q.isLt; omega⟩ : Fin 512) (⟨q.val % 512, by have := q.isLt; omega⟩ : Fin 512)) := by
  refine shapeCast_apply x shapeCasts_S8x21x512x512_S8x21x262144 (ix3 b r q) _ ?_
  rw [Shape.rowMajor_val_four, Shape.rowMajor_val_three]
  show ((b.val * 21 + r.val) * 512 + q.val / 512) * 512 + q.val % 512 = (b.val * 21 + r.val) * 262144 + q.val
  omega

end Cert.KernelIdeal.KValue

end
-- ==== Proof.KAccum.lean ====
/-
  The accumulation over a sample's 8 grid points, lane by lane.

  Lane `k` (0: true positives, 1: false positives, 2: false negatives) of the output block after point `t = 8 b + i` holds
  the sum of the chunk counts of the points `8 b … 8 b + i`: the head of the run resets the block to zero before adding
  its own count, every later point adds its count to what the point before left. After the run's last point, `8 b + 7`,
  it is the sum of sample `b`'s 8 chunk counts.
-/
import proofs.«153910_j14482629722430_1_alg».proof.Proof.KStats
import proofs.«153910_j14482629722430_1_alg».proof.Proof.KPieces
import proofs.«153910_j14482629722430_1_alg».proof.Proof.KBlocks

noncomputable section

namespace Cert.KernelIdeal.KValue

open Cert.KernelIdeal Cert.KernelIdeal.Gen Cert.IoU
open Idealize.ShloMosaic Idealize.ShloMosaic.ValueIdx Idealize.ShloMosaic.TcCoe Idealize.SL.Sem
open scoped BigOperators

/-- The three masks by lane. -/
def mask : Fin 3 → BitVec 32 → BitVec 32 → BitVec 1
  | ⟨0, _⟩ => mTP
  | ⟨1, _⟩ => mFP
  | ⟨2, _⟩ => mFN

/-- Lane `k` of the 128-lane output block. -/
abbrev lane (k : Fin 3) : Fin 128 := ⟨k.val, by have := k.isLt; omega⟩

/-- Lane `k` of what a point stores: what the block held there plus the point's count of mask `k` over its 21 rows and
    32768 lanes. -/
theorem point_lane (k : Fin 3) (x0 x1 : Vec Ideal S1x21x32768 .i32) (xo : Vec Ideal S1x1x128 .f32) :
    k0_pay1 (F := Ideal) (k0_pay8 x0 x1) (k0_pay9 x0 x1) (k0_pay10 x0 x1) xo (ix3 (0 : Fin 1) (0 : Fin 1) (lane k))
      = xo (ix3 (0 : Fin 1) (0 : Fin 1) (lane k))
        + ∑ r : Fin 21, ∑ l : Fin 32768, ind (mask k (x0 (ix3 (0 : Fin 1) r l)) (x1 (ix3 (0 : Fin 1) r l))) := by
  match k with
  | ⟨0, _⟩ =>
    exact (stored_0 _ _ _ xo).trans (congrArg (xo (ix3 (0 : Fin 1) (0 : Fin 1) (0 : Fin 128)) + ·)
      (Finset.sum_congr rfl fun r _ => tp_row x0 x1 r))
  | ⟨1, _⟩ =>
    exact (stored_1 _ _ _ xo).trans (congrArg (xo (ix3 (0 : Fin 1) (0 : Fin 1) (1 : Fin 128)) + ·)
      (Finset.sum_congr rfl fun r _ => fp_row x0 x1 r))
  | ⟨2, _⟩ =>
    exact (stored_2 _ _ _ xo).trans (congrArg (xo (ix3 (0 : Fin 1) (0 : Fin 1) (2 : Fin 128)) + ·)
      (Finset.sum_congr rfl fun r _ => fn_row x0 x1 r))

/-- Every lane of the zero block is zero. -/
theorem zero_lane (j : Fin 128) : k0_pay2 (F := Ideal) (ix3 (0 : Fin 1) (0 : Fin 1) j) = 0 := by
  show Ideal.ofBits .f32 0x00000000#32 = 0
  exact Ideal.ofBits_zero_f32

variable (m : (ℓ : Loc nD τ sig) → Buf (Elt Ideal) ℓ)

/-- Point `t`'s count of mask `k`: over the 21 rows and 32768 lanes of its two input blocks. -/
def chunk (k : Fin 3) (c : Dev nD) (t : Fin cfg0.N) : EReal :=
  ∑ r : Fin 21, ∑ l : Fin 32768,
    ind (mask k (gblk m c t (ix3 (0 : Fin 1) r l)) (pblk m c t (ix3 (0 : Fin 1) r l)))

/-- At the head of a run the lane holds the point's own count. -/
theorem head (k : Fin 3) (c : Dev nD) (t : Fin cfg0.N) (h0 : t.val % 8 = 0) :
    outsAt0 m c t.val t.isLt (ix3 (0 : Fin 1) (0 : Fin 1) (lane k)) = chunk m k c t := by
  rw [outsAt0_A m c t h0]
  refine (congrFun (out_A (F := Ideal) c (grid0.coords t) (ms0_0 t) (hs0_0 t) (ms0_1 t) (hs0_1 t) (ms0_2 t) (hs0_2 t)
    ((hcond0_0 t).mpr h0) (gblk m c t) (pblk m c t)) (ix3 (0 : Fin 1) (0 : Fin 1) (lane k))).trans ?_
  rw [point_lane, zero_lane, zero_add]
  rfl

/-- At any other point it holds what the point before left plus the point's own count. -/
theorem next (k : Fin 3) (c : Dev nD) (t : Fin cfg0.N) (h0 : ¬t.val % 8 = 0) :
    outsAt0 m c t.val t.isLt (ix3 (0 : Fin 1) (0 : Fin 1) (lane k))
      = outsAt0 m c (t.val - 1) (Nat.lt_of_le_of_lt (Nat.sub_le _ _) t.isLt) (ix3 (0 : Fin 1) (0 : Fin 1) (lane k))
        + chunk m k c t := by
  rw [outsAt0_B m c t h0]
  refine (congrFun (out_B (F := Ideal) c (grid0.coords t) (ms0_0 t) (hs0_0 t) (ms0_1 t) (hs0_1 t) (ms0_2 t) (hs0_2 t)
    (fun h => h0 ((hcond0_0 t).mp h)) (gblk m c t) (pblk m c t)
    (outsAt0 m c (t.val - 1) (Nat.lt_of_le_of_lt (Nat.sub_le _ _) t.isLt))) (ix3 (0 : Fin 1) (0 : Fin 1) (lane k))).trans ?_
  rw [point_lane]
  rfl

/-- The lane after point `n`, and point `n`'s count, as functions on all naturals (zero past the grid). -/
def outN (k : Fin 3) (c : Dev nD) (n : ℕ) : EReal :=
  if h : n < cfg0.N then outsAt0 m c n h (ix3 (0 : Fin 1) (0 : Fin 1) (lane k)) else 0
def chunkN (k : Fin 3) (c : Dev nD) (n : ℕ) : EReal :=
  if h : n < cfg0.N then chunk m k c ⟨n, h⟩ else 0

/-- After point `n` the lane holds the counts of `n`'s run up to `n`. -/
theorem outN_closed (k : Fin 3) (c : Dev nD) :
    ∀ n, n < cfg0.N → outN m k c n = ∑ i ∈ Finset.range (n % 8 + 1), chunkN m k c (8 * (n / 8) + i) := by
  refine run_closed cfg0.N (outN m k c) (chunkN m k c) (fun h => ?_) (fun n h hm => ?_) (fun n h hm => ?_)
  · have e1 : outN m k c 0 = outsAt0 m c 0 h (ix3 (0 : Fin 1) (0 : Fin 1) (lane k)) := dif_pos h
    have e2 : chunkN m k c 0 = chunk m k c ⟨0, h⟩ := dif_pos h
    rw [e1, e2]
    exact head m k c ⟨0, h⟩ rfl
  · have e1 : outN m k c (n + 1) = outsAt0 m c (n + 1) h (ix3 (0 : Fin 1) (0 : Fin 1) (lane k)) := dif_pos h
    have e2 : chunkN m k c (n + 1) = chunk m k c ⟨n + 1, h⟩ := dif_pos h
    rw [e1, e2]
    exact head m k c ⟨n + 1, h⟩ hm
  · have h' : n < cfg0.N := Nat.lt_of_succ_lt h
    have e1 : outN m k c (n + 1) = outsAt0 m c (n + 1) h (ix3 (0 : Fin 1) (0 : Fin 1) (lane k)) := dif_pos h
    have e2 : outN m k c n = outsAt0 m c n h' (ix3 (0 : Fin 1) (0 : Fin 1) (lane k)) := dif_pos h'
    have e3 : chunkN m k c (n + 1) = chunk m k c ⟨n + 1, h⟩ := dif_pos h
    rw [e1, e2, e3]
    exact next m k c ⟨n + 1, h⟩ hm

/-- After the last point of sample `b`'s run the lane holds the sum of the sample's 8 chunk counts. -/
theorem at_last (k : Fin 3) (c : Dev nD) (b : Fin 8) (h : 8 * b.val + 7 < cfg0.N) :
    outsAt0 m c (8 * b.val + 7) h (ix3 (0 : Fin 1) (0 : Fin 1) (lane k))
      = ∑ i : Fin 8, chunkN m k c (8 * b.val + i.val) := by
  have e1 : outN m k c (8 * b.val + 7) = outsAt0 m c (8 * b.val + 7) h (ix3 (0 : Fin 1) (0 : Fin 1) (lane k)) := dif_pos h
  have e2 : (8 * b.val + 7) % 8 + 1 = 8 := by omega
  have e3 : 8 * ((8 * b.val + 7) / 8) = 8 * b.val := by omega
  rw [← e1, outN_closed m k c _ h, e2, e3, Finset.sum_range]

end Cert.KernelIdeal.KValue

end
-- ==== Proof.KFinal.lean ====
/-
  The kernel's result: the closing formula of the three count vectors.

  The 8 chunk counts of sample `b` add up to the sample's count over its 21 rows and 262144 flattened positions
  (`Cert.IoU.sum_chunks`), read through the host's reshape of the 4-d arguments. The output block of sample `b` is written
  back to row `b` of the [8, 1, 128] result array after the sample's last point only, so the array ends holding, in lanes
  0, 1, 2 of row `b`, the three counts of sample `b`. The host operations after the region cut out those three lanes and
  apply the closing formula to them.
-/
import proofs.«153910_j14482629722430_1_alg».proof.Proof.KAccum
import Idealize.ShloMosaic.Lib.Pipeline.Value
import Idealize.ShloMosaic.Lib.StableHlo.Run
import Idealize.ShloMosaic.Lib.Tactic

noncomputable section

namespace Cert.KernelIdeal.KValue

open Cert.KernelIdeal Cert.KernelIdeal.Gen Cert.IoU
open Idealize.ShloMosaic Idealize.ShloMosaic.ValueIdx Idealize.ShloMosaic.TcCoe Idealize.SL.Sem Idealize.ShloMosaic.Tactic
open Idealize.ShloMosaic.StableHlo
open Idealize.ShloMosaic.Pipeline (Dat)
open scoped BigOperators

variable (m : (ℓ : Loc nD τ sig) → Buf (Elt Ideal) ℓ) (ρ : Dev nD → PrngReg)

/-! ## A sample's 8 chunk counts are its count -/

/-- The count of mask `k` at flattened position `q` of row `r` of sample `b`, zero past the row's end. -/
def posN (k : Fin 3) (c : Dev nD) (b : Fin 8) (r : Fin 21) (q : ℕ) : EReal :=
  if h : q < 262144 then ind (mask k (garr m c (ix3 b r (⟨q, h⟩ : Fin 262144))) (parr m c (ix3 b r (⟨q, h⟩ : Fin 262144)))) else 0

/-- Point `8 b + i`'s count, position by position of the flattened arrays. -/
theorem chunk_at (k : Fin 3) (c : Dev nD) (b i : Fin 8) :
    chunkN m k c (8 * b.val + i.val) = ∑ r : Fin 21, ∑ l : Fin 32768, posN m k c b r (32768 * i.val + l.val) := by
  have hN : 8 * b.val + i.val < cfg0.N := by
    rw [show cfg0.N = 64 from N_0]; have := b.isLt; have := i.isLt; omega
  have e : chunkN m k c (8 * b.val + i.val) = chunk m k c ⟨8 * b.val + i.val, hN⟩ := dif_pos hN
  rw [e]
  unfold chunk
  refine Finset.sum_congr rfl fun r _ => Finset.sum_congr rfl fun l _ => ?_
  have hq : 32768 * i.val + l.val < 262144 := by have := i.isLt; have := l.isLt; omega
  have e2 : posN m k c b r (32768 * i.val + l.val)
      = ind (mask k (garr m c (ix3 b r (⟨32768 * i.val + l.val, hq⟩ : Fin 262144))) (parr m c (ix3 b r (⟨32768 * i.val + l.val, hq⟩ : Fin 262144)))) :=
    dif_pos hq
  rw [e2, gblk_apply, pblk_apply]
  have hb : (⟨(8 * b.val + i.val) / 8, by have := b.isLt; have := i.isLt; omega⟩ : Fin 8) = b := Fin.ext (by
    show (8 * b.val + i.val) / 8 = b.val
    have := i.isLt; omega)
  have hi : (⟨32768 * ((8 * b.val + i.val) % 8) + l.val, by have := i.isLt; have := l.isLt; omega⟩ : Fin 262144)
      = ⟨32768 * i.val + l.val, hq⟩ := Fin.ext (by
    show 32768 * ((8 * b.val + i.val) % 8) + l.val = 32768 * i.val + l.val
    have := i.isLt; omega)
  show ind (mask k (garr m c (ix3 (⟨(8 * b.val + i.val) / 8, _⟩ : Fin 8) r (⟨32768 * ((8 * b.val + i.val) % 8) + l.val, _⟩ : Fin 262144)))
      (parr m c (ix3 (⟨(8 * b.val + i.val) / 8, _⟩ : Fin 8) r (⟨32768 * ((8 * b.val + i.val) % 8) + l.val, _⟩ : Fin 262144)))) = _
  rw [hb, hi]

/-- The 8 chunk counts of sample `b` add up to the sample's count in the specification's order. -/
theorem sample_count (k : Fin 3) (c : Dev nD) (b : Fin 8) :
    ∑ i : Fin 8, chunkN m k c (8 * b.val + i.val)
      = Cert.IoU.count (mask k) (m ((c : Thread nD τ).loc main_arg0)) (m ((c : Thread nD τ).loc main_arg1)) b := by
  rw [Finset.sum_congr rfl fun i _ => chunk_at m k c b i, sum_chunks (posN m k c b)]
  unfold Cert.IoU.count
  refine Finset.sum_congr rfl fun r _ => Finset.sum_congr rfl fun q _ => ?_
  have e : posN m k c b r q.val = ind (mask k (garr m c (ix3 b r q)) (parr m c (ix3 b r q))) := dif_pos q.isLt
  rw [e, garr_eq, parr_eq, flat_apply, flat_apply]

/-! ## The result array after the run -/

/-- The block a point leaves depends on the point's number only. -/
theorem outsAt0_congr (c : Dev nD) {n n' : ℕ} (e : n = n') (h : n < cfg0.N) (h' : n' < cfg0.N) {y y' : S1x1x128.Idx}
    (ey : y = y') : outsAt0 m c n h y = outsAt0 m c n' h' y' := by
  subst e; subst ey; rfl

theorem row_lt (i : S8x1x128.Idx) : 8 * (i 0).val + 7 < cfg0.N := by
  rw [show cfg0.N = 64 from N_0]
  have h : (i 0).val < 8 := (i 0).isLt
  omega

/-- The result array as the run leaves it: row `b` is the output block after the last point, `8 b + 7`, of sample `b`. -/
def rows (c : Dev nD) : Vec Ideal S8x1x128 .f32 := fun i =>
  outsAt0 m c (8 * (i 0).val + 7) (row_lt i)
    (ix3 (0 : Fin 1) (0 : Fin 1) (⟨(i 2).val, (show (i 2).val < 128 from (i 2).isLt)⟩ : Fin 128))

/-- The output window's block index at point `t` is (sample `t / 8`, 0, 0): decided over the 64 points. -/
theorem idx_o : ∀ t : Fin cfg0.N, win0_2.index t (0 : Fin 3) = t.val / 8 ∧ win0_2.index t (1 : Fin 3) = 0 ∧ win0_2.index t (2 : Fin 3) = 0 :=
  (by decide +kernel : ∀ t : Fin grid0.N, win0_2.index t (0 : Fin 3) = t.val / 8 ∧ win0_2.index t (1 : Fin 3) = 0 ∧ win0_2.index t (2 : Fin 3) = 0)

/-- What a write-back point (the last of a run) writes back is its row of `rows`. -/
theorem flushed_eq (c : Dev nD) (t : Fin cfg0.N) (hf : (cfg0.win 2).flush t = true) :
    (dats m 0 c).flushed 2 t = ((cfg0.win 2).blk t).view.read (Elt Ideal) (rows m c) := by
  have h7 : t.val % 8 = 7 := (flush0_2 t).mp hf
  obtain ⟨e0, e1, e2⟩ := idx_o t
  show (cfg0.win 2).cut (grid0.coords t) ((dats m 0 c).after 2 t) = _
  rw [after0_2]
  funext y
  rw [View.read_apply]
  show outsAt0 m c t.val t.isLt y = rows m c (((cfg0.win 2).blk t).view.emb y)
  unfold rows
  have hy0 : (y 0).val < 1 := (y 0).isLt
  have hy1 : (y 1).val < 1 := (y 1).isLt
  refine outsAt0_congr m c ?_ _ _ ?_
  · show t.val = 8 * (win0_2.index t 0 * 1 + 1 * (y 0).val) + 7
    omega
  · funext a
    apply Fin.ext
    match a with
    | ⟨0, _⟩ => show (y 0).val = 0; omega
    | ⟨1, _⟩ => show (y 1).val = 0; omega
    | ⟨2, _⟩ => show (y 2).val = win0_2.index t 2 * 128 + 1 * (y 2).val; omega

/-- An index of the array is in point `t`'s block iff each coordinate is in the block's range on its axis. -/
theorem mem_blk (t : Fin cfg0.N) (i : S8x1x128.Idx) :
    i ∈ ((cfg0.win 2).blk t).view.set
      ↔ ∀ a : Fin 3, win0_2.index t a * S1x1x128.size a ≤ (i a).val ∧ (i a).val < win0_2.index t a * S1x1x128.size a + S1x1x128.size a := by
  show i ∈ ((View.whole main_v2).slice (win0_2.rect t)).set ↔ _
  rw [View.set_slice_whole, Rect.mem_set_unit]
  exact Iff.rfl

/-- Every index of the result array lies in the block of its row's write-back point. -/
theorem cover (c : Dev nD) (i : S8x1x128.Idx) :
    ∃ t : Fin cfg0.N, (cfg0.win 2).flush t = true ∧ i ∈ ((cfg0.win 2).blk t).view.set := by
  have h0 : (i 0).val < 8 := (i 0).isLt
  have h1 : (i 1).val < 1 := (i 1).isLt
  have h2 : (i 2).val < 128 := (i 2).isLt
  refine ⟨⟨8 * (i 0).val + 7, row_lt i⟩, (flush0_2 _).mpr (by show (8 * (i 0).val + 7) % 8 = 7; omega), ?_⟩
  rw [mem_blk]
  obtain ⟨e0, e1, e2⟩ := idx_o ⟨8 * (i 0).val + 7, row_lt i⟩
  have e0' : win0_2.index ⟨8 * (i 0).val + 7, row_lt i⟩ (0 : Fin 3) = (8 * (i 0).val + 7) / 8 := e0
  intro a
  match a with
  | ⟨0, _⟩ =>
    show win0_2.index ⟨8 * (i 0).val + 7, row_lt i⟩ (0 : Fin 3) * 1 ≤ (i 0).val
      ∧ (i 0).val < win0_2.index ⟨8 * (i 0).val + 7, row_lt i⟩ (0 : Fin 3) * 1 + 1
    omega
  | ⟨1, _⟩ =>
    show win0_2.index ⟨8 * (i 0).val + 7, row_lt i⟩ (1 : Fin 3) * 1 ≤ (i 1).val
      ∧ (i 1).val < win0_2.index ⟨8 * (i 0).val + 7, row_lt i⟩ (1 : Fin 3) * 1 + 1
    omega
  | ⟨2, _⟩ =>
    show win0_2.index ⟨8 * (i 0).val + 7, row_lt i⟩ (2 : Fin 3) * 128 ≤ (i 2).val
      ∧ (i 2).val < win0_2.index ⟨8 * (i 0).val + 7, row_lt i⟩ (2 : Fin 3) * 128 + 128
    omega

/-- So the result array ends holding `rows`. -/
theorem final (c : Dev nD) : (dats m 0 c).arrAt 2 cfg0.N = rows m c :=
  (dats m 0 c).arrAt_eq_of_cover 2 (rows m c) (flushed_eq m c) (cover c)

/-- Lane `k` of row `b` is sample `b`'s count of mask `k`. -/
theorem rows_lane (k : Fin 3) (c : Dev nD) (b : Fin 8) :
    rows m c (ix3 b (0 : Fin 1) (lane k))
      = Cert.IoU.count (mask k) (m ((c : Thread nD τ).loc main_arg0)) (m ((c : Thread nD τ).loc main_arg1)) b := by
  have hb : 8 * b.val + 7 < cfg0.N := by rw [show cfg0.N = 64 from N_0]; have := b.isLt; omega
  show outsAt0 m c (8 * b.val + 7) hb (ix3 (0 : Fin 1) (0 : Fin 1) (lane k)) = _
  exact (at_last m k c b hb).trans (sample_count m k c b)

/-! ## The host operations after the region -/

/-- Lane 0, 1, 2 of every row, cut out and flattened to an [8] vector, read at sample `b`. -/
theorem cut_0 (R : Vec Ideal S8x1x128 .f32) (b : Fin 8) :
    shapeCast S8 (extractStridedSlice S8x1x1 ![0, 0, 0] R slices_S8x1x128_S8x1x1_0_0_0) shapeCasts_S8x1x1_S8 (ix1 b)
      = R (ix3 b (0 : Fin 1) (0 : Fin 128)) := by
  refine (shapeCast_apply _ shapeCasts_S8x1x1_S8 (ix1 b) (ix3 b (0 : Fin 1) (0 : Fin 1)) ?_).trans ?_
  · rw [Shape.rowMajor_val_three, Shape.rowMajor_val_one]
    show (b.val * 1 + 0) * 1 + 0 = b.val
    omega
  exact extractStridedSlice_apply _ R slices_S8x1x128_S8x1x1_0_0_0 _ (ix3 b (0 : Fin 1) (0 : Fin 128)) (fun a => by
    match a with
    | ⟨0, _⟩ => show b.val = 0 + b.val; omega
    | ⟨1, _⟩ => rfl
    | ⟨2, _⟩ => rfl)

theorem cut_1 (R : Vec Ideal S8x1x128 .f32) (b : Fin 8) :
    shapeCast S8 (extractStridedSlice S8x1x1 ![0, 0, 1] R slices_S8x1x128_S8x1x1_0_0_1) shapeCasts_S8x1x1_S8 (ix1 b)
      = R (ix3 b (0 : Fin 1) (1 : Fin 128)) := by
  refine (shapeCast_apply _ shapeCasts_S8x1x1_S8 (ix1 b) (ix3 b (0 : Fin 1) (0 : Fin 1)) ?_).trans ?_
  · rw [Shape.rowMajor_val_three, Shape.rowMajor_val_one]
    show (b.val * 1 + 0) * 1 + 0 = b.val
    omega
  exact extractStridedSlice_apply _ R slices_S8x1x128_S8x1x1_0_0_1 _ (ix3 b (0 : Fin 1) (1 : Fin 128)) (fun a => by
    match a with
    | ⟨0, _⟩ => show b.val = 0 + b.val; omega
    | ⟨1, _⟩ => rfl
    | ⟨2, _⟩ => rfl)

theorem cut_2 (R : Vec Ideal S8x1x128 .f32) (b : Fin 8) :
    shapeCast S8 (extractStridedSlice S8x1x1 ![0, 0, 2] R slices_S8x1x128_S8x1x1_0_0_2) shapeCasts_S8x1x1_S8 (ix1 b)
      = R (ix3 b (0 : Fin 1) (2 : Fin 128)) := by
  refine (shapeCast_apply _ shapeCasts_S8x1x1_S8 (ix1 b) (ix3 b (0 : Fin 1) (0 : Fin 1)) ?_).trans ?_
  · rw [Shape.rowMajor_val_three, Shape.rowMajor_val_one]
    show (b.val * 1 + 0) * 1 + 0 = b.val
    omega
  exact extractStridedSlice_apply _ R slices_S8x1x128_S8x1x1_0_0_2 _ (ix3 b (0 : Fin 1) (2 : Fin 128)) (fun a => by
    match a with
    | ⟨0, _⟩ => show b.val = 0 + b.val; omega
    | ⟨1, _⟩ => rfl
    | ⟨2, _⟩ => rfl)

/-- The host tail: the three lanes cut out of the result array, then the closing formula, word for word. -/
theorem tail_eq (c : Dev nD) :
    Pipeline.afterTail₀ cfgs (dats m) 0 (V0 m) [hostOps1] c main_v15
      = closing bcast_S_S8 reducesTo_S8_S_d0 h_S_
          (shapeCast S8 (extractStridedSlice S8x1x1 ![0, 0, 0] ((dats m 0 c).arrAt 2 cfg0.N) slices_S8x1x128_S8x1x1_0_0_0) shapeCasts_S8x1x1_S8)
          (shapeCast S8 (extractStridedSlice S8x1x1 ![0, 0, 1] ((dats m 0 c).arrAt 2 cfg0.N) slices_S8x1x128_S8x1x1_0_0_1) shapeCasts_S8x1x1_S8)
          (shapeCast S8 (extractStridedSlice S8x1x1 ![0, 0, 2] ((dats m 0 c).arrAt 2 cfg0.N) slices_S8x1x128_S8x1x1_0_0_2) shapeCasts_S8x1x1_S8) := by
  unfold Pipeline.afterTail₀
  show StableHlo.after hostOps1 _ (Proc.devRef .tc main_v15) = _
  after_results
  rw [Pipeline.withArrays_arr spec0 launch0.win.arr_inj c _ _ 2]
  rfl

/-- The kernel's result is the specification's. -/
theorem result_eq (c : Dev nD) :
    Pipeline.afterTail₀ cfgs (dats m) 0 (V0 m) [hostOps1] c main_v15
      = result bcast_S_S8 reducesTo_S8_S_d0 h_S_ (m ((c : Thread nD τ).loc main_arg0)) (m ((c : Thread nD τ).loc main_arg1)) := by
  rw [tail_eq, final]
  have c0 : shapeCast S8 (extractStridedSlice S8x1x1 ![0, 0, 0] (rows m c) slices_S8x1x128_S8x1x1_0_0_0) shapeCasts_S8x1x1_S8
      = counts mTP (m ((c : Thread nD τ).loc main_arg0)) (m ((c : Thread nD τ).loc main_arg1)) := by
    funext j
    obtain ⟨b, rfl⟩ : ∃ b : Fin 8, j = ix1 b := ⟨j 0, eq_ix1 j⟩
    exact (cut_0 (rows m c) b).trans (rows_lane m 0 c b)
  have c1 : shapeCast S8 (extractStridedSlice S8x1x1 ![0, 0, 1] (rows m c) slices_S8x1x128_S8x1x1_0_0_1) shapeCasts_S8x1x1_S8
      = counts mFP (m ((c : Thread nD τ).loc main_arg0)) (m ((c : Thread nD τ).loc main_arg1)) := by
    funext j
    obtain ⟨b, rfl⟩ : ∃ b : Fin 8, j = ix1 b := ⟨j 0, eq_ix1 j⟩
    exact (cut_1 (rows m c) b).trans (rows_lane m 1 c b)
  have c2 : shapeCast S8 (extractStridedSlice S8x1x1 ![0, 0, 2] (rows m c) slices_S8x1x128_S8x1x1_0_0_2) shapeCasts_S8x1x1_S8
      = counts mFN (m ((c : Thread nD τ).loc main_arg0)) (m ((c : Thread nD τ).loc main_arg1)) := by
    funext j
    obtain ⟨b, rfl⟩ : ∃ b : Fin 8, j = ix1 b := ⟨j 0, eq_ix1 j⟩
    exact (cut_2 (rows m c) b).trans (rows_lane m 2 c b)
  rw [c0, c1, c2]
  rfl

/-! ## The run -/

/-- Every weakly fair execution of the idealized kernel terminates with the result at the specification's value and
    the two arguments unchanged. -/
theorem run : θ_run defs (onTc (τ := τ) (main (F := Ideal))) ⟨m, fun _ => 0, ρ⟩ fun r => ∀ c : Dev nD,
      r.2.mem ((c.tc : Thread nD τ).loc main_v15)
        = result bcast_S_S8 reducesTo_S8_S_d0 h_S_ (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v15 (Pipeline.mem_restRefs_of main_v15 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KValue

end
-- ==== Proof.lean ====
/- Per-sample Jaccard index of two label arrays, averaged over the samples: the kernel against its reference.

   Both programs count, for each of the 8 samples, the positions that are true positives, false positives and false
   negatives of the two int32[8, 21, 512, 512] label arrays (class range 1 … 20, ignore label 255), each position as the
   real number 0 or 1, and then apply the same closing formula, tp / max (tp + fp + fn) ε per sample, the 8 quotients
   summed and divided by 8. The reference adds a sample's 21 · 512 · 512 zeros and ones in one sum; the kernel flattens
   each row's 512 × 512 image, walks it in 8 chunks of 32768 positions, sums each chunk row by row, adds the 21 row sums,
   and accumulates the 8 chunk totals in an output block that it resets at the first chunk of a sample and writes back
   after the last. A finite sum on the extended reals does not depend on order or grouping, so the two are one function
   of the inputs (`Cert.IoU.result`, Proof/Spec.lean), on every pair of integer arrays: no precondition is used.

   Proof/Spec.lean       the masks, the closing formula, the result function and the sum laws (re-grouping, the accumulator)
   Proof/RefSide.lean    the reference's result is the result function (its three sums read position by position)
   Proof/KPay.lean       the body's masks and row sums at an index
   Proof/KStats.lean     lanes 0, 1, 2 of the vector the body stores
   Proof/KPieces.lean    what a grid point leaves in the output block, as the body's arithmetic of its blocks
   Proof/KBlocks.lean    where a point's input blocks sit in the flattened arrays, and those in the 4-d arguments
   Proof/KAccum.lean     the accumulation over a sample's 8 points
   Proof/KFinal.lean     the result array after the run, the host operations after it, the kernel's run
   The frames of the two kernels are the generated ones; the reference's is its generated run with the result dropped;
   the idealization rewrote nothing, so it is preserved trivially. -/
import proofs.«153910_j14482629722430_1_alg».proof.Defs
import proofs.«153910_j14482629722430_1_alg».proof.Proof.RefSide
import proofs.«153910_j14482629722430_1_alg».proof.Proof.KFinal
import proofs.«153910_j14482629722430_1_alg».proof.Proof.Gen.Kernel
import proofs.«153910_j14482629722430_1_alg».proof.Proof.Gen.Kernel.Skeleton
import proofs.«153910_j14482629722430_1_alg».proof.Proof.Gen.Kernel.Launch
import proofs.«153910_j14482629722430_1_alg».proof.Proof.Gen.Kernel.Points
import proofs.«153910_j14482629722430_1_alg».proof.Proof.Gen.Kernel.Frame
import proofs.«153910_j14482629722430_1_alg».proof.Proof.Gen.KernelIdeal
import proofs.«153910_j14482629722430_1_alg».proof.Proof.Gen.KernelIdeal.Skeleton
import proofs.«153910_j14482629722430_1_alg».proof.Proof.Gen.KernelIdeal.Launch
import proofs.«153910_j14482629722430_1_alg».proof.Proof.Gen.KernelIdeal.Points
import proofs.«153910_j14482629722430_1_alg».proof.Proof.Gen.KernelIdeal.Frame
import proofs.«153910_j14482629722430_1_alg».proof.Proof.Gen.ReferenceIdeal
import proofs.«153910_j14482629722430_1_alg».proof.Proof.Gen.ReferenceIdeal.Run
import proofs.«153910_j14482629722430_1_alg».proof.Proof.Gen.ReferenceIdeal.Read
import proofs.«153910_j14482629722430_1_alg».proof.Proof.Gen.Pre_any_inputs
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the two label arrays both idealized programs end at the same result: the result function
    of the arrays. -/
theorem algebraic : Cert.algebraic_KernelIdeal_ReferenceIdeal := by
  intro m ρ m' ρ' _ hagree
  refine ⟨fun c => Cert.IoU.result Cert.KernelIdeal.Gen.bcast_S_S8 Cert.KernelIdeal.Gen.reducesTo_S8_S_d0 Cert.KernelIdeal.Gen.h_S_
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v33_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_any_inputs.Gen.facts,
    frame_k, frame_ki, frame_ri, preserves, algebraic⟩

end Cert.Proof

end
